-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v27)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v27) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v32) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S300000x4 : Shape := ⟨2, ![300000, 4]⟩
abbrev S300000x32 : Shape := ⟨2, ![300000, 32]⟩
abbrev S_ : Shape := ⟨0, ![]⟩

class Facts : Prop where
  bcast_S_S300000x32 : S_.BroadcastsInDim S300000x32 (![] : Fin 0 → Fin S300000x32.rank)
  reducesTo_S300000x32_S_d0_1 : S300000x32.ReducesTo [0, 1] S_
  h_S_ : 0 < S_.numel

variable [Facts]

def fn {F : FTy → Type} [FloatOps F] (main_arg0 : IVec S300000x4 32) (main_arg1 : FVec F S300000x32 .f32) : IVec S_ 1 :=
  let main_v0 : FVec F S300000x32 .f32 := Host.absf main_arg1
  let main_cst : FVec F S_ .f32 := constant S_ .f32 0x7F800000#32
  let main_v1 : FVec F S300000x32 .f32 := broadcastInDim S300000x32 ![] bcast_S_S300000x32 main_cst
  let main_v2 : IVec S300000x32 1 := cmpf .olt main_v0 main_v1
  let main_c : IVec S_ 1 := constantI S_ 1 1#1
  let main_v3 : IVec S_ 1 := (fun x v => Host.reduce IntOp.andi x v reducesTo_S300000x32_S_d0_1 h_S_) main_v2 main_c
  main_v3
-- ==== Kernel.lean ====
abbrev S300000x4 : Shape := ⟨2, ![300000, 4]⟩
abbrev S300000x32 : Shape := ⟨2, ![300000, 32]⟩
abbrev S300000x1 : Shape := ⟨2, ![300000, 1]⟩
abbrev S300000 : Shape := ⟨1, ![300000]⟩
abbrev S_ : Shape := ⟨0, ![]⟩
abbrev S3840000x32 : Shape := ⟨2, ![3840000, 32]⟩
abbrev S2x400x400x384 : Shape := ⟨4, ![2, 400, 400, 384]⟩
abbrev S2x384x400x400 : Shape := ⟨4, ![2, 384, 400, 400]⟩
abbrev S1x16x400x128 : Shape := ⟨4, ![1, 16, 400, 128]⟩
abbrev S1x128x16x400 : Shape := ⟨4, ![1, 128, 16, 400]⟩
abbrev S16x400x128 : Shape := ⟨3, ![16, 400, 128]⟩
abbrev S128x16x400 : Shape := ⟨3, ![128, 16, 400]⟩

abbrev nBuf : Space → Nat
  | .hbm => 43
  | .vmem => 4
  | .smem => 0
  | _ => 0

abbrev bufTy : (tb : Table) → Fin (tcTables nBuf tb) → BufTy
  | .hbm, ⟨0, _⟩ => ⟨S300000x4, .i32⟩
  | .hbm, ⟨1, _⟩ => ⟨S300000x32, .f32⟩
  | .hbm, ⟨2, _⟩ => ⟨S300000x1, .i32⟩
  | .hbm, ⟨3, _⟩ => ⟨S300000, .i32⟩
  | .hbm, ⟨4, _⟩ => ⟨S300000x1, .i32⟩
  | .hbm, ⟨5, _⟩ => ⟨S300000, .i32⟩
  | .hbm, ⟨6, _⟩ => ⟨S300000x1, .i32⟩
  | .hbm, ⟨7, _⟩ => ⟨S300000, .i32⟩
  | .hbm, ⟨8, _⟩ => ⟨S300000x1, .i32⟩
  | .hbm, ⟨9, _⟩ => ⟨S300000, .i32⟩
  | .hbm, ⟨10, _⟩ => ⟨S_, .i32⟩
  | .hbm, ⟨11, _⟩ => ⟨S_, .i32⟩
  | .hbm, ⟨12, _⟩ => ⟨S_, .i32⟩
  | .hbm, ⟨13, _⟩ => ⟨S300000, .i32⟩
  | .hbm, ⟨14, _⟩ => ⟨S300000, .i32⟩
  | .hbm, ⟨15, _⟩ => ⟨S_, .i32⟩
  | .hbm, ⟨16, _⟩ => ⟨S300000, .i32⟩
  | .hbm, ⟨17, _⟩ => ⟨S300000, .i32⟩
  | .hbm, ⟨18, _⟩ => ⟨S_, .i32⟩
  | .hbm, ⟨19, _⟩ => ⟨S300000, .i32⟩
  | .hbm, ⟨20, _⟩ => ⟨S300000, .i32⟩
  | .hbm, ⟨21, _⟩ => ⟨S_, .i32⟩
  | .hbm, ⟨22, _⟩ => ⟨S300000, .i32⟩
  | .hbm, ⟨23, _⟩ => ⟨S300000, .i32⟩
  | .hbm, ⟨24, _⟩ => ⟨S300000, .i32⟩
  | .hbm, ⟨25, _⟩ => ⟨S_, .i32⟩
  | .hbm, ⟨26, _⟩ => ⟨S300000, .i32⟩
  | .hbm, ⟨27, _⟩ => ⟨S300000, .i32⟩
  | .hbm, ⟨28, _⟩ => ⟨S300000, .i32⟩
  | .hbm, ⟨29, _⟩ => ⟨S300000, .i32⟩
  | .hbm, ⟨30, _⟩ => ⟨S_, .f32⟩
  | .hbm, ⟨31, _⟩ => ⟨S3840000x32, .f32⟩
  | .hbm, ⟨32, _⟩ => ⟨S_, .i32⟩
  | .hbm, ⟨33, _⟩ => ⟨S300000, .i32⟩
  | .hbm, ⟨34, _⟩ => ⟨S300000, .i1⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S300000, .i32⟩
  | .hbm, ⟨39, _⟩ => ⟨S300000x1, .i32⟩
  | .hbm, ⟨40, _⟩ => ⟨S3840000x32, .f32⟩
  | .hbm, ⟨41, _⟩ => ⟨S2x400x400x384, .f32⟩
  | .hbm, ⟨42, _⟩ => ⟨S2x384x400x400, .f32⟩
  | .local _ .vmem, ⟨0, _⟩ => ⟨S1x16x400x128, .f32⟩
  | .local _ .vmem, ⟨1, _⟩ => ⟨S1x16x400x128, .f32⟩
  | .local _ .vmem, ⟨2, _⟩ => ⟨S1x128x16x400, .f32⟩
  | .local _ .vmem, ⟨3, _⟩ => ⟨S1x128x16x400, .f32⟩
  | _, _ => ⟨S300000x4, .i32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_c : Ref sig .tc := ⟨.hbm, 10, rfl⟩
abbrev main_c_0 : Ref sig .tc := ⟨.hbm, 11, rfl⟩
abbrev main_call0_v0 : Ref sig .tc := ⟨.hbm, 12, rfl⟩
abbrev main_call0_v1 : Ref sig .tc := ⟨.hbm, 13, rfl⟩
abbrev main_call0_v2 : Ref sig .tc := ⟨.hbm, 14, rfl⟩
abbrev main_call0_v3 : Ref sig .tc := ⟨.hbm, 15, rfl⟩
abbrev main_call0_v4 : Ref sig .tc := ⟨.hbm, 16, rfl⟩
abbrev main_v8 : Ref sig .tc := ⟨.hbm, 17, rfl⟩
abbrev main_c_1 : Ref sig .tc := ⟨.hbm, 18, rfl⟩
abbrev main_v9 : Ref sig .tc := ⟨.hbm, 19, rfl⟩
abbrev main_v10 : Ref sig .tc := ⟨.hbm, 20, rfl⟩
abbrev main_c_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_c_3 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_cst : Ref sig .tc := ⟨.hbm, 30, rfl⟩
abbrev main_v18 : Ref sig .tc := ⟨.hbm, 31, rfl⟩
abbrev main_c_4 : Ref sig .tc := ⟨.hbm, 32, rfl⟩
abbrev main_v19 : Ref sig .tc := ⟨.hbm, 33, rfl⟩
abbrev main_v20 : Ref sig .tc := ⟨.hbm, 34, rfl⟩
abbrev main_c_5 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_sem0_0 : DmaSem sig := 0
abbrev cc0_sem0_1 : DmaSem sig := 1
abbrev cc0_sem1_0 : DmaSem sig := 2
abbrev cc0_sem1_1 : DmaSem sig := 3

abbrev nD : Nat := 1
abbrev τ : Topo := Topo.v7x

variable {F : FTy → Type} [FloatOps F]

abbrev grid0 : Pipeline.Grid := ⟨3, ![2, 25, 3], ![false, false, false]⟩

def cc0_transform_0 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg1.toNat, c0_i32.toNat, arg2.toNat]

def cc0_transform_1 (i : grid0.Coords) : Fin 4 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, arg2.toNat, arg1.toNat, c0_i32.toNat]

abbrev stage0_0 : Fin 2 → Memref sig .tc .vmem S1x16x400x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S1x128x16x400 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, true]

class Facts₀ : Prop where
  slices_S300000x4_S300000x1_0_3 : S300000x4.Slices ![0, 3] S300000x1
  shapeCasts_S300000x1_S300000 : S300000x1.ShapeCasts S300000
  slices_S300000x4_S300000x1_0_0 : S300000x4.Slices ![0, 0] S300000x1
  slices_S300000x4_S300000x1_0_1 : S300000x4.Slices ![0, 1] S300000x1
  slices_S300000x4_S300000x1_0_2 : S300000x4.Slices ![0, 2] S300000x1
  bcast_S_S300000 : S_.BroadcastsInDim S300000 (![] : Fin 0 → Fin S300000.rank)
  bcast_S_S3840000x32 : S_.BroadcastsInDim S3840000x32 (![] : Fin 0 → Fin S3840000x32.rank)
  bcast_S300000_S300000x1_0 : S300000.BroadcastsInDim S300000x1 (![0] : Fin 1 → Fin S300000x1.rank)
  shapeCasts_S3840000x32_S2x400x400x384 : S3840000x32.ShapeCasts S2x400x400x384
  inb_S1x16x400x128_S1x16x400x128_0_0_0_0 : ∀ a, (![0, 0, 0, 0] : Fin 4 → Nat) a + S1x16x400x128.size a ≤ S1x16x400x128.size a
  h_S1x16x400x128 : 0 < S1x16x400x128.numel
  shapeCasts_S1x16x400x128_S16x400x128 : S1x16x400x128.ShapeCasts S16x400x128
  transposes_S16x400x128_p2_0_1_S128x16x400 : S16x400x128.Transposes [2, 0, 1] S128x16x400
  inb_S1x128x16x400_S1x128x16x400_0_0_0_0 : ∀ a, (![0, 0, 0, 0] : Fin 4 → Nat) a + S1x128x16x400.size a ≤ S1x128x16x400.size a
  h_S1x128x16x400 : 0 < S1x128x16x400.numel
  shapeCasts_S1x128x16x400_S128x16x400 : S1x128x16x400.ShapeCasts S128x16x400
  shapeCasts_S128x16x400_S1x128x16x400 : S128x16x400.ShapeCasts S1x128x16x400
  scatter_S3840000x32_S300000x1_S300000x32_1_0_0_1_wf : ScatterDims.WF S3840000x32 S300000x1 S300000x32 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x16x400x128.size a ≤ S2x400x400x384.size a
  hwx0_0 : ∀ i : grid0.Coords, EltTy.bits .f32 = 32 ∨ (Rect.block (s := S2x400x400x384) S1x16x400x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S1x128x16x400.size a ≤ S2x384x400x400.size a
  hwx0_1 : ∀ i : grid0.Coords, EltTy.bits .f32 = 32 ∨ (Rect.block (s := S2x384x400x400) S1x128x16x400.size (cc0_transform_1 i) (hinb0_1 i)).WholeWords (EltTy.packing .f32)

variable [Facts₀]

def scatter_S3840000x32_S300000x1_S300000x32_1_0_0_1 : ScatterDims S3840000x32 S300000x1 S300000x32 where
  updateWindowDims := [1]
  insertedWindowDims := [0]
  scatterDimsToOperandDims := [0]
  indexVectorDim := 1
  wf := scatter_S3840000x32_S300000x1_S300000x32_1_0_0_1_wf

abbrev win0_0 : Pipeline.Window sig grid0 :=
  Pipeline.Window.ofSpec (Memref.whole main_v26) S1x16x400x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v27) S1x128x16x400.size cc0_transform_1 reads0_1 true false 2 stage0_1 sem0_1
    hrank0 hreads0_1 hinb0_1 nbuf0_1 (Memref.isWhole_whole _) hwx0_1 hstage0_1

abbrev win0 : Fin 2 → Pipeline.Window sig grid0 := fun | 0 => win0_0 | 1 => win0_1 | ⟨_ + 2, h⟩ => absurd h (Nat.not_lt.2 (Nat.le_add_left _ _))
abbrev spec0 : Fin 2 → Pipeline.WinSpec sig grid0.rank := fun w => (win0 w).toWinSpec

class Facts : Prop extends Facts₀ where

variable [Facts]
-- ==== ReferenceIdeal.lean ====
abbrev S300000x4 : Shape := ⟨2, ![300000, 4]⟩
abbrev S300000x32 : Shape := ⟨2, ![300000, 32]⟩
abbrev S3 : Shape := ⟨1, ![3]⟩
abbrev S300000x1 : Shape := ⟨2, ![300000, 1]⟩
abbrev S300000 : Shape := ⟨1, ![300000]⟩
abbrev S300000x3 : Shape := ⟨2, ![300000, 3]⟩
abbrev S1x3 : Shape := ⟨2, ![1, 3]⟩
abbrev S_ : Shape := ⟨0, ![]⟩
abbrev S3840000x32 : Shape := ⟨2, ![3840000, 32]⟩
abbrev S2x400x400x384 : Shape := ⟨4, ![2, 400, 400, 384]⟩
abbrev S2x384x400x400 : Shape := ⟨4, ![2, 384, 400, 400]⟩

abbrev nBuf : Space → Nat
  | .hbm => 66
  | .vmem => 0
  | .smem => 0
  | _ => 0

abbrev bufTy : (tb : Table) → Fin (tcTables nBuf tb) → BufTy
  | .hbm, ⟨0, _⟩ => ⟨S300000x4, .i32⟩
  | .hbm, ⟨1, _⟩ => ⟨S300000x32, .f32⟩
  | .hbm, ⟨2, _⟩ => ⟨S3, .i32⟩
  | .hbm, ⟨3, _⟩ => ⟨S3, .i32⟩
  | .hbm, ⟨4, _⟩ => ⟨S300000x1, .i32⟩
  | .hbm, ⟨5, _⟩ => ⟨S300000, .i32⟩
  | .hbm, ⟨6, _⟩ => ⟨S300000x3, .i32⟩
  | .hbm, ⟨7, _⟩ => ⟨S1x3, .i32⟩
  | .hbm, ⟨8, _⟩ => ⟨S300000x3, .i32⟩
  | .hbm, ⟨9, _⟩ => ⟨S300000x3, .i32⟩
  | .hbm, ⟨10, _⟩ => ⟨S1x3, .i32⟩
  | .hbm, ⟨11, _⟩ => ⟨S300000x3, .i32⟩
  | .hbm, ⟨12, _⟩ => ⟨S300000x3, .i32⟩
  | .hbm, ⟨13, _⟩ => ⟨S300000x3, .i32⟩
  | .hbm, ⟨14, _⟩ => ⟨S1x3, .i32⟩
  | .hbm, ⟨15, _⟩ => ⟨S300000x3, .i32⟩
  | .hbm, ⟨16, _⟩ => ⟨S300000x3, .i1⟩
  | .hbm, ⟨17, _⟩ => ⟨S300000x3, .i32⟩
  | .hbm, ⟨18, _⟩ => ⟨S300000x3, .i32⟩
  | .hbm, ⟨19, _⟩ => ⟨S_, .i32⟩
  | .hbm, ⟨20, _⟩ => ⟨S300000x3, .i32⟩
  | .hbm, ⟨21, _⟩ => ⟨S300000x3, .i1⟩
  | .hbm, ⟨22, _⟩ => ⟨S300000x3, .i1⟩
  | .hbm, ⟨23, _⟩ => ⟨S_, .i32⟩
  | .hbm, ⟨24, _⟩ => ⟨S300000x3, .i32⟩
  | .hbm, ⟨25, _⟩ => ⟨S300000x3, .i32⟩
  | .hbm, ⟨26, _⟩ => ⟨S300000x3, .i32⟩
  | .hbm, ⟨27, _⟩ => ⟨S300000x1, .i32⟩
  | .hbm, ⟨28, _⟩ => ⟨S300000, .i32⟩
  | .hbm, ⟨29, _⟩ => ⟨S300000x1, .i32⟩
  | .hbm, ⟨30, _⟩ => ⟨S300000, .i32⟩
  | .hbm, ⟨31, _⟩ => ⟨S300000x1, .i32⟩
  | .hbm, ⟨32, _⟩ => ⟨S300000, .i32⟩
  | .hbm, ⟨33, _⟩ => ⟨S_, .i32⟩
  | .hbm, ⟨34, _⟩ => ⟨S_, .i32⟩
  | .hbm, ⟨35, _⟩ => ⟨S_, .i32⟩
  | .hbm, ⟨36, _⟩ => ⟨S300000, .i32⟩
  | .hbm, ⟨37, _⟩ => ⟨S300000, .i32⟩
  | .hbm, ⟨38, _⟩ => ⟨S_, .i32⟩
  | .hbm, ⟨39, _⟩ => ⟨S300000, .i32⟩
  | .hbm, ⟨40, _⟩ => ⟨S300000, .i32⟩
  | .hbm, ⟨41, _⟩ => ⟨S_, .i32⟩
  | .hbm, ⟨42, _⟩ => ⟨S300000, .i32⟩
  | .hbm, ⟨43, _⟩ => ⟨S300000, .i32⟩
  | .hbm, ⟨44, _⟩ => ⟨S_, .i32⟩
  | .hbm, ⟨45, _⟩ => ⟨S300000, .i32⟩
  | .hbm, ⟨46, _⟩ => ⟨S300000, .i32⟩
  | .hbm, ⟨47, _⟩ => ⟨S300000, .i32⟩
  | .hbm, ⟨48, _⟩ => ⟨S_, .i32⟩
  | .hbm, ⟨49, _⟩ => ⟨S300000, .i32⟩
  | .hbm, ⟨50, _⟩ => ⟨S300000, .i32⟩
  | .hbm, ⟨51, _⟩ => ⟨S300000, .i32⟩
  | .hbm, ⟨52, _⟩ => ⟨S300000, .i32⟩
  | .hbm, ⟨53, _⟩ => ⟨S_, .f32⟩
  | .hbm, ⟨54, _⟩ => ⟨S3840000x32, .f32⟩
  | .hbm, ⟨55, _⟩ => ⟨S_, .i32⟩
  | .hbm, ⟨56, _⟩ => ⟨S300000, .i32⟩
  | .hbm, ⟨57, _⟩ => ⟨S300000, .i1⟩
  | .hbm, ⟨58, _⟩ => ⟨S_, .i32⟩
  | .hbm, ⟨59, _⟩ => ⟨S300000, .i32⟩
  | .hbm, ⟨60, _⟩ => ⟨S300000, .i32⟩
  | .hbm, ⟨61, _⟩ => ⟨S300000, .i32⟩
  | .hbm, ⟨62, _⟩ => ⟨S300000x1, .i32⟩
  | .hbm, ⟨63, _⟩ => ⟨S3840000x32, .f32⟩
  | .hbm, ⟨64, _⟩ => ⟨S2x400x400x384, .f32⟩
  | .hbm, ⟨65, _⟩ => ⟨S2x384x400x400, .f32⟩
  | _, _ => ⟨S300000x4, .i32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_c_0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_call0_v0 : Ref sig .tc := ⟨.hbm, 10, rfl⟩
abbrev main_call0_v1 : Ref sig .tc := ⟨.hbm, 11, rfl⟩
abbrev main_call0_v2 : Ref sig .tc := ⟨.hbm, 12, rfl⟩
abbrev main_call0_v3 : Ref sig .tc := ⟨.hbm, 13, rfl⟩
abbrev main_call0_v4 : Ref sig .tc := ⟨.hbm, 14, rfl⟩
abbrev main_call0_v5 : Ref sig .tc := ⟨.hbm, 15, rfl⟩
abbrev main_call0_v6 : Ref sig .tc := ⟨.hbm, 16, rfl⟩
abbrev main_call0_v7 : Ref sig .tc := ⟨.hbm, 17, rfl⟩
abbrev main_call0_v8 : Ref sig .tc := ⟨.hbm, 18, rfl⟩
abbrev main_call0_c : Ref sig .tc := ⟨.hbm, 19, rfl⟩
abbrev main_call0_v9 : Ref sig .tc := ⟨.hbm, 20, rfl⟩
abbrev main_call0_v10 : Ref sig .tc := ⟨.hbm, 21, rfl⟩
abbrev main_call0_v11 : Ref sig .tc := ⟨.hbm, 22, rfl⟩
abbrev main_call0_c_0 : Ref sig .tc := ⟨.hbm, 23, rfl⟩
abbrev main_call0_v12 : Ref sig .tc := ⟨.hbm, 24, rfl⟩
abbrev main_call0_v13 : Ref sig .tc := ⟨.hbm, 25, rfl⟩
abbrev main_v6 : Ref sig .tc := ⟨.hbm, 26, rfl⟩
abbrev main_v7 : Ref sig .tc := ⟨.hbm, 27, rfl⟩
abbrev main_v8 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_c_1 : Ref sig .tc := ⟨.hbm, 33, rfl⟩
abbrev main_c_2 : Ref sig .tc := ⟨.hbm, 34, rfl⟩
abbrev main_call1_v0 : Ref sig .tc := ⟨.hbm, 35, rfl⟩
abbrev main_call1_v1 : Ref sig .tc := ⟨.hbm, 36, rfl⟩
abbrev main_call1_v2 : Ref sig .tc := ⟨.hbm, 37, rfl⟩
abbrev main_call1_v3 : Ref sig .tc := ⟨.hbm, 38, rfl⟩
abbrev main_call1_v4 : Ref sig .tc := ⟨.hbm, 39, rfl⟩
abbrev main_v13 : Ref sig .tc := ⟨.hbm, 40, rfl⟩
abbrev main_c_3 : Ref sig .tc := ⟨.hbm, 41, rfl⟩
abbrev main_v14 : Ref sig .tc := ⟨.hbm, 42, rfl⟩
abbrev main_v15 : Ref sig .tc := ⟨.hbm, 43, rfl⟩
abbrev main_c_4 : Ref sig .tc := ⟨.hbm, 44, rfl⟩
abbrev main_v16 : Ref sig .tc := ⟨.hbm, 45, rfl⟩
abbrev main_v17 : Ref sig .tc := ⟨.hbm, 46, rfl⟩
abbrev main_v18 : Ref sig .tc := ⟨.hbm, 47, rfl⟩
abbrev main_c_5 : Ref sig .tc := ⟨.hbm, 48, rfl⟩
abbrev main_v19 : Ref sig .tc := ⟨.hbm, 49, rfl⟩
abbrev main_v20 : Ref sig .tc := ⟨.hbm, 50, rfl⟩
abbrev main_v21 : Ref sig .tc := ⟨.hbm, 51, rfl⟩
abbrev main_v22 : Ref sig .tc := ⟨.hbm, 52, rfl⟩
abbrev main_cst : Ref sig .tc := ⟨.hbm, 53, rfl⟩
abbrev main_v23 : Ref sig .tc := ⟨.hbm, 54, rfl⟩
abbrev main_c_6 : Ref sig .tc := ⟨.hbm, 55, rfl⟩
abbrev main_v24 : Ref sig .tc := ⟨.hbm, 56, rfl⟩
abbrev main_v25 : Ref sig .tc := ⟨.hbm, 57, rfl⟩
abbrev main_c_7 : Ref sig .tc := ⟨.hbm, 58, rfl⟩
abbrev main_v26 : Ref sig .tc := ⟨.hbm, 59, rfl⟩
abbrev main_v27 : Ref sig .tc := ⟨.hbm, 60, rfl⟩
abbrev main_v28 : Ref sig .tc := ⟨.hbm, 61, rfl⟩
abbrev main_v29 : Ref sig .tc := ⟨.hbm, 62, rfl⟩
abbrev main_v30 : Ref sig .tc := ⟨.hbm, 63, rfl⟩
abbrev main_v31 : Ref sig .tc := ⟨.hbm, 64, rfl⟩
abbrev main_v32 : Ref sig .tc := ⟨.hbm, 65, rfl⟩

abbrev nD : Nat := 1
abbrev τ : Topo := Topo.v7x

variable {F : FTy → Type} [FloatOps F]

class Facts₀ : Prop where
  slices_S300000x4_S300000x1_0_3 : S300000x4.Slices ![0, 3] S300000x1
  shapeCasts_S300000x1_S300000 : S300000x1.ShapeCasts S300000
  slices_S300000x4_S300000x3_0_0 : S300000x4.Slices ![0, 0] S300000x3
  bcast_S3_S1x3_1 : S3.BroadcastsInDim S1x3 (![1] : Fin 1 → Fin S1x3.rank)
  bcast_S1x3_S300000x3_0_1 : S1x3.BroadcastsInDim S300000x3 (![0, 1] : Fin 2 → Fin S300000x3.rank)
  bcast_S_S300000x3 : S_.BroadcastsInDim S300000x3 (![] : Fin 0 → Fin S300000x3.rank)
  slices_S300000x3_S300000x1_0_0 : S300000x3.Slices ![0, 0] S300000x1
  slices_S300000x3_S300000x1_0_2 : S300000x3.Slices ![0, 2] S300000x1
  slices_S300000x3_S300000x1_0_1 : S300000x3.Slices ![0, 1] S300000x1
  bcast_S_S300000 : S_.BroadcastsInDim S300000 (![] : Fin 0 → Fin S300000.rank)
  bcast_S_S3840000x32 : S_.BroadcastsInDim S3840000x32 (![] : Fin 0 → Fin S3840000x32.rank)
  bcast_S300000_S300000x1_0 : S300000.BroadcastsInDim S300000x1 (![0] : Fin 1 → Fin S300000x1.rank)
  shapeCasts_S3840000x32_S2x400x400x384 : S3840000x32.ShapeCasts S2x400x400x384
  transposes_S2x400x400x384_S2x384x400x400_0_3_1_2 : S2x400x400x384.Transposes [0, 3, 1, 2] S2x384x400x400
  scatter_S3840000x32_S300000x1_S300000x32_1_0_0_1_wf : ScatterDims.WF S3840000x32 S300000x1 S300000x32 [1] [0] [0] 1

variable [Facts₀]

def scatter_S3840000x32_S300000x1_S300000x32_1_0_0_1 : ScatterDims S3840000x32 S300000x1 S300000x32 where
  updateWindowDims := [1]
  insertedWindowDims := [0]
  scatterDimsToOperandDims := [0]
  indexVectorDim := 1
  wf := scatter_S3840000x32_S300000x1_S300000x32_1_0_0_1_wf

class Facts : Prop extends Facts₀ where

variable [Facts]
-- ==== Proof.KernelPermute.lean ====
/-
  The kernel's region, in closed form: the output array is the channel-major rearrangement of the dense grid.

  The pallas_call walks a 2 × 25 × 3 grid. At point (b, i, c) it reads the [1, 16, 400, 128] block of the dense
  array f32[2, 400, 400, 384] at block index (b, i, 0, c) — batch b, sixteen rows of the first ground axis, the
  whole second ground axis, 128 of the 384 fused height-and-channel lanes —, moves the lane axis to the front
  inside the block, and writes the [1, 128, 16, 400] result at block index (b, c, i, 0) of the output
  f32[2, 384, 400, 400]. An output element (b, 128·c + k, 16·i + p, q) is therefore the dense element
  (b, 16·i + p, q, 128·c + k): the whole output is the dense array with its axes permuted by [0, 3, 1, 2],
  and the 150 output blocks tile the output exactly once.
-/
import proofs.«104003_j42279658062070_1_alg».proof.Proof.Gen.KernelIdeal.Value
import Idealize.ShloMosaic.Lib.Pipeline.Value

set_option maxRecDepth 16384

noncomputable section

namespace Cert.KernelIdeal.Permute

open Cert.KernelIdeal Cert.KernelIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0, 0, 0] : Fin 4 → Nat) = fun _ => 0 := funext fun a => by fin_cases a <;> rfl

/-- [2, 400, 400, 384] with its axes permuted by [0, 3, 1, 2] is [2, 384, 400, 400]. -/
theorem transposes_nchw : S2x400x400x384.Transposes [0, 3, 1, 2] S2x384x400x400 := by decide

/-- The dense grid (batch, ground row, ground column, height × channel) laid out channel-major:
    (batch, height × channel, ground row, ground column). -/
def nchw (X : Vec F S2x400x400x384 .f32) : Vec F S2x384x400x400 .f32 :=
  transpose S2x384x400x400 [0, 3, 1, 2] X transposes_nchw

/-- The rearranged array at `j` is the dense array at the index with `j`'s coordinates put back in the dense order. -/
theorem nchw_apply (X : Vec F S2x400x400x384 .f32) (j : S2x384x400x400.Idx) (k : S2x400x400x384.Idx)
    (h0 : (k 0).val = (j 0).val) (h1 : (k 1).val = (j 2).val) (h2 : (k 2).val = (j 3).val) (h3 : (k 3).val = (j 1).val) :
    nchw X j = X k := by
  unfold nchw
  exact transpose_apply [0, 3, 1, 2] X transposes_nchw j k (fun b => match b with
    | ⟨0, _⟩ => by show (k 0).val = (j 0).val; exact h0
    | ⟨1, _⟩ => by show (k 3).val = (j 1).val; exact h3
    | ⟨2, _⟩ => by show (k 1).val = (j 2).val; exact h1
    | ⟨3, _⟩ => by show (k 2).val = (j 3).val; exact h2)

/-- What the body leaves in the output's staging block, from the input block `x0`: at block index `y` the input
    block's element with the lane axis moved back to the end. -/
theorem out_apply (x0 : Vec F S1x16x400x128 .f32) (y : S1x128x16x400.Idx) : out0_1 x0 y = x0 (Value.ix1_0 y) := by
  unfold out0_1
  rw [View.ld_unit_zero (S := S1x16x400x128) zero_offsets]
  exact Value.canon1_eq x0 y

/-- The two index maps over the grid: the input block's indices are the output block's, permuted, both unit
    axes at block 0, and the output's block indices range over 2 × 3 × 25. -/
theorem idx_facts : ∀ t : Fin cfg0.N,
    win0_0.index t (0 : Fin 4) = win0_1.index t (0 : Fin 4)
    ∧ win0_0.index t (1 : Fin 4) = win0_1.index t (2 : Fin 4)
    ∧ win0_0.index t (2 : Fin 4) = 0
    ∧ win0_0.index t (3 : Fin 4) = win0_1.index t (1 : Fin 4)
    ∧ win0_1.index t (3 : Fin 4) = 0 :=
  (by decide +kernel : ∀ t : Fin grid0.N, _)

/-- Every output block index in 2 × 3 × 25 is some grid point's. -/
theorem idx_onto : ∀ (q0 : Fin 2) (q1 : Fin 3) (q2 : Fin 25), ∃ t : Fin cfg0.N, win0_1.index t = ![q0.val, q1.val, q2.val, 0] :=
  (by decide +kernel : ∀ (q0 : Fin 2) (q1 : Fin 3) (q2 : Fin 25), ∃ t : Fin grid0.N, win0_1.index t = ![q0.val, q1.val, q2.val, 0])

/-- What point `t` writes back is block `t` of the rearranged dense array. -/
theorem flushed_eq (c : Dev nD) (t : Fin cfg0.N) :
    (dats m 0 c).flushed 1 t = ((cfg0.win 1).blk t).view.read (Elt F) (nchw (V m c main_v26)) := by
  rw [Value.flushed1]
  obtain ⟨e0, e1, e2, e3, e4⟩ := idx_facts t
  funext j
  show out0_1 (iblk m c 0 t) j = nchw (V m c main_v26) (((cfg0.win 1).blk t).view.emb j)
  refine (out_apply (F := F) (iblk m c 0 t) j).trans ?_
  show V m c main_v26 (((cfg0.win 0).blk t).view.emb (Value.ix1_0 j)) = _
  have hj0 : (j 0).val < 1 := (j 0).isLt
  refine (nchw_apply (V m c main_v26) _ _ ?_ ?_ ?_ ?_).symm
  · show win0_0.index t (0 : Fin 4) * 1 + 1 * 0 = win0_1.index t (0 : Fin 4) * 1 + 1 * (j 0).val
    omega
  · show win0_0.index t (1 : Fin 4) * 16 + 1 * (j 2).val = win0_1.index t (2 : Fin 4) * 16 + 1 * (j 2).val
    omega
  · show win0_0.index t (2 : Fin 4) * 400 + 1 * (j 3).val = win0_1.index t (3 : Fin 4) * 400 + 1 * (j 3).val
    omega
  · show win0_0.index t (3 : Fin 4) * 128 + 1 * (j 1).val = win0_1.index t (1 : Fin 4) * 128 + 1 * (j 1).val
    omega

/-- An index of the output is in point `t`'s block iff each coordinate is in the block's range on its axis. -/
theorem mem_blk (t : Fin cfg0.N) (i : S2x384x400x400.Idx) :
    i ∈ ((cfg0.win 1).blk t).view.set ↔ ∀ a : Fin 4, win0_1.index t a * S1x128x16x400.size a ≤ (i a).val ∧ (i a).val < win0_1.index t a * S1x128x16x400.size a + S1x128x16x400.size a := by
  show i ∈ ((View.whole main_v27).slice (win0_1.rect t)).set ↔ _
  rw [View.set_slice_whole, Rect.mem_set_unit]
  exact Iff.rfl

/-- The output blocks cover the output: index (b, h, r, q) is in the block of the point whose output block index
    is (b, h / 128, r / 16, 0). -/
theorem covered (i : S2x384x400x400.Idx) :
    ∃ t : Fin cfg0.N, (cfg0.win 1).flush t = true ∧ i ∈ ((cfg0.win 1).blk t).view.set := by
  have hi0 : (i 0).val < 2 := (i 0).isLt
  have hi1 : (i 1).val < 384 := (i 1).isLt
  have hi2 : (i 2).val < 400 := (i 2).isLt
  have hi3 : (i 3).val < 400 := (i 3).isLt
  obtain ⟨t, ht⟩ := idx_onto ⟨(i 0).val, by omega⟩ ⟨(i 1).val / 128, by omega⟩ ⟨(i 2).val / 16, by omega⟩
  have q0 : win0_1.index t (0 : Fin 4) = (i 0).val := congrFun ht 0
  have q1 : win0_1.index t (1 : Fin 4) = (i 1).val / 128 := congrFun ht 1
  have q2 : win0_1.index t (2 : Fin 4) = (i 2).val / 16 := congrFun ht 2
  have q3 : win0_1.index t (3 : Fin 4) = 0 := congrFun ht 3
  refine ⟨t, flush0_1 t, ?_⟩
  rw [mem_blk]
  intro a
  match a with
  | ⟨0, _⟩ => show win0_1.index t (0 : Fin 4) * 1 ≤ (i 0).val ∧ (i 0).val < win0_1.index t (0 : Fin 4) * 1 + 1; omega
  | ⟨1, _⟩ => show win0_1.index t (1 : Fin 4) * 128 ≤ (i 1).val ∧ (i 1).val < win0_1.index t (1 : Fin 4) * 128 + 128; omega
  | ⟨2, _⟩ => show win0_1.index t (2 : Fin 4) * 16 ≤ (i 2).val ∧ (i 2).val < win0_1.index t (2 : Fin 4) * 16 + 16; omega
  | ⟨3, _⟩ => show win0_1.index t (3 : Fin 4) * 400 ≤ (i 3).val ∧ (i 3).val < win0_1.index t (3 : Fin 4) * 400 + 400; omega

/-- The output array after the run is the rearranged dense array the region found. -/
theorem final (c : Dev nD) : (dats m 0 c).arrAt 1 cfg0.N = nchw (V m c main_v26) :=
  (dats m 0 c).arrAt_eq_of_cover 1 (nchw (V m c main_v26)) (fun t _ => flushed_eq m c t) covered

/-- The kernel program's run: the result array ends at the rearranged dense array, the arguments unchanged. -/
theorem run : θ_run defs (onTc (τ := τ) (main (F := F))) ⟨m, fun _ => 0, ρ⟩ fun r => ∀ c : Dev nD,
      r.2.mem ((c : Thread nD τ).loc main_v27) = nchw (V m c main_v26)
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final m c), (h c).2⟩) (Value.run_blocks m ρ)

end Cert.KernelIdeal.Permute

end
-- ==== Proof.KernelDense.lean ====
/-
  What the kernel program's host operations hand the region: the dense voxel grid.

  Before the pallas_call, @main computes from the coordinate table (one row per point: x, z, y, batch) the
  flattened voxel word  batch · 1920000 + x · 4800 + y · 12 + clamp(z, 0, 11)  in 32-bit wrapping arithmetic,
  moves a negative word up by the number of voxels 3840000 (an index counted from the end), scatter-adds the
  feature rows into a zero array f32[3840000, 32] at those words, and views the sum as f32[2, 400, 400, 384].
  The functions below name that chain; `V_dense` reads it off the fold of @main's host operations.
-/
import proofs.«104003_j42279658062070_1_alg».proof.Proof.Gen.KernelIdeal.Frame
import Idealize.ShloMosaic.Lib.StableHlo.Run

noncomputable section

namespace Cert.KernelIdeal.Dense

open Cert.KernelIdeal Cert.KernelIdeal.Gen Idealize.ShloMosaic Idealize.ShloMosaic.TcCoe Idealize.SL.Sem Idealize.ShloMosaic.StableHlo

variable {F : FTy → Type} [FloatOps F]

/-- The batch column of the coordinate table, as a vector of words. -/
def colB (a : IVec S300000x4 32) : IVec S300000 32 :=
  shapeCast S300000 (extractStridedSlice S300000x1 ![0, 3] a slices_S300000x4_S300000x1_0_3) shapeCasts_S300000x1_S300000
/-- The x column. -/
def colX (a : IVec S300000x4 32) : IVec S300000 32 :=
  shapeCast S300000 (extractStridedSlice S300000x1 ![0, 0] a slices_S300000x4_S300000x1_0_0) shapeCasts_S300000x1_S300000
/-- The height column. -/
def colZ (a : IVec S300000x4 32) : IVec S300000 32 :=
  shapeCast S300000 (extractStridedSlice S300000x1 ![0, 1] a slices_S300000x4_S300000x1_0_1) shapeCasts_S300000x1_S300000
/-- The y column. -/
def colY (a : IVec S300000x4 32) : IVec S300000 32 :=
  shapeCast S300000 (extractStridedSlice S300000x1 ![0, 2] a slices_S300000x4_S300000x1_0_2) shapeCasts_S300000x1_S300000

/-- One word at every point. -/
def splat (w : BitVec 32) : IVec S300000 32 := broadcastInDim S300000 ![] bcast_S_S300000 (constantI S_ 32 w)

/-- The height clamped to [0, 11]. -/
def clamp (z : IVec S300000 32) : IVec S300000 32 := minsi (splat 11#32) (maxsi (splat 0#32) z)

/-- The flattened voxel word, in wrapping arithmetic. -/
def flat (b x y z : IVec S300000 32) : IVec S300000 32 :=
  addi (addi (addi (muli b (splat 1920000#32)) (muli x (splat 4800#32))) (muli y (splat 12#32))) z

/-- A negative word counts from the end of the 3840000 voxels. -/
def wrap (i : IVec S300000 32) : IVec S300000 32 := select (cmpi .slt i (splat 0#32)) (addi i (splat 3840000#32)) i

/-- The scatter word of every point, from the coordinate table. -/
def voxel (a : IVec S300000x4 32) : IVec S300000 32 := wrap (flat (colB a) (colX a) (colY a) (clamp (colZ a)))

/-- The feature rows summed into the zero voxel array at the given words, viewed [2, 400, 400, 384]. -/
def dense (idx : IVec S300000 32) (feats : FVec F S300000x32 .f32) : FVec F S2x400x400x384 .f32 :=
  shapeCast S2x400x400x384
    (Host.scatterAdd scatter_S3840000x32_S300000x1_S300000x32_1_0_0_1
      (broadcastInDim S3840000x32 ![] bcast_S_S3840000x32 (constant S_ .f32 0x00000000#32))
      (broadcastInDim S300000x1 ![0] bcast_S300000_S300000x1_0 idx) feats)
    shapeCasts_S3840000x32_S2x400x400x384

variable (m : (ℓ : Loc nD τ sig) → Buf (Elt F) ℓ)

/-- The array the region's input window stages is the dense grid of the launch's two arguments. -/
theorem V_dense (c : Dev nD) :
    (V m c main_v26 : S2x400x400x384.Idx → Elt F .f32)
      = dense (voxel (m ((c : Thread nD τ).loc main_arg0))) (m ((c : Thread nD τ).loc main_arg1)) := by
  dsimp only [Gen.V]
  simp only [Gen.hostOps0, Gen.hostOps0_1, Gen.hostOps0_2, List.flatten_cons, List.flatten_nil, List.append_nil, List.cons_append,
    List.nil_append]
  after_results_simp
  rfl

end Cert.KernelIdeal.Dense

end
-- ==== Proof.RefOps.lean ====
import proofs.«104003_j42279658062070_1_alg».proof.Proof.Gen.ReferenceIdeal
import Idealize.ShloMosaic.Lib.StableHlo.Run

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

/-- @main's 64 operations in order, the callees' at their call sites. -/
abbrev ops : List (HloOp τ sig (Elt F)) :=
  [ StableHlo.nullary main_c (constantI S3 32 0#32),
    StableHlo.nullary main_c_0 (constantI S3 32 1#32),
    StableHlo.unary main_arg0 main_v0 ((extractStridedSlice S300000x1 ![0, 3] · slices_S300000x4_S300000x1_0_3) : (⟨S300000x4, .i32⟩ : BufTy).Contents (Elt F) → (⟨S300000x1, .i32⟩ : BufTy).Contents (Elt F)),
    StableHlo.reshape main_v0 main_v1 rfl shapeCasts_S300000x1_S300000,
    StableHlo.unary main_arg0 main_v2 ((extractStridedSlice S300000x3 ![0, 0] · slices_S300000x4_S300000x3_0_0) : (⟨S300000x4, .i32⟩ : BufTy).Contents (Elt F) → (⟨S300000x3, .i32⟩ : BufTy).Contents (Elt F)),
    StableHlo.unary main_c main_v3 (broadcastInDim S1x3 ![1] bcast_S3_S1x3_1 : (⟨S3, .i32⟩ : BufTy).Contents (Elt F) → (⟨S1x3, .i32⟩ : BufTy).Contents (Elt F)),
    StableHlo.unary main_v3 main_v4 (broadcastInDim S300000x3 ![0, 1] bcast_S1x3_S300000x3_0_1 : (⟨S1x3, .i32⟩ : BufTy).Contents (Elt F) → (⟨S300000x3, .i32⟩ : BufTy).Contents (Elt F)),
    StableHlo.binary main_v2 main_v4 main_v5 (subi : (⟨S300000x3, .i32⟩ : BufTy).Contents (Elt F) → (⟨S300000x3, .i32⟩ : BufTy).Contents (Elt F) → (⟨S300000x3, .i32⟩ : BufTy).Contents (Elt F)),
    StableHlo.TRef.unary (.of main_c_0 : StableHlo.TRef sig ⟨S3, .i32⟩) main_call0.v0 (broadcastInDim S1x3 ![1] bcast_S3_S1x3_1),
    StableHlo.TRef.unary main_call0.v0 main_call0.v1 (broadcastInDim S300000x3 ![0, 1] bcast_S1x3_S300000x3_0_1),
    StableHlo.TRef.binary (.of main_v5 : StableHlo.TRef sig ⟨S300000x3, .i32⟩) main_call0.v1 main_call0.v2 Host.divsi,
    StableHlo.TRef.unary (.of main_v5 : StableHlo.TRef sig ⟨S300000x3, .i32⟩) main_call0.v3 signi,
    StableHlo.TRef.unary main_call0.v0 main_call0.v4 signi,
    StableHlo.TRef.unary main_call0.v4 main_call0.v5 (broadcastInDim S300000x3 ![0, 1] bcast_S1x3_S300000x3_0_1),
    StableHlo.TRef.binary main_call0.v3 main_call0.v5 main_call0.v6 (cmpi .ne),
    StableHlo.TRef.unary main_call0.v0 main_call0.v7 (broadcastInDim S300000x3 ![0, 1] bcast_S1x3_S300000x3_0_1),
    StableHlo.TRef.binary (.of main_v5 : StableHlo.TRef sig ⟨S300000x3, .i32⟩) main_call0.v7 main_call0.v8 Host.remsi,
    StableHlo.TRef.nullary main_call0.c (constantI S_ 32 0#32),
    StableHlo.TRef.unary main_call0.c main_call0.v9 (broadcastInDim S300000x3 ![] bcast_S_S300000x3),
    StableHlo.TRef.binary main_call0.v8 main_call0.v9 main_call0.v10 (cmpi .ne),
    StableHlo.TRef.binary main_call0.v6 main_call0.v10 main_call0.v11 andi,
    StableHlo.TRef.nullary main_call0.c_0 (constantI S_ 32 1#32),
    StableHlo.TRef.unary main_call0.c_0 main_call0.v12 (broadcastInDim S300000x3 ![] bcast_S_S300000x3),
    StableHlo.TRef.binary main_call0.v2 main_call0.v12 main_call0.v13 subi,
    StableHlo.TRef.ternary main_call0.v11 main_call0.v13 main_call0.v2 main_call0.call0.v0 select,
    StableHlo.unary main_v6 main_v7 ((extractStridedSlice S300000x1 ![0, 0] · slices_S300000x3_S300000x1_0_0) : (⟨S300000x3, .i32⟩ : BufTy).Contents (Elt F) → (⟨S300000x1, .i32⟩ : BufTy).Contents (Elt F)),
    StableHlo.reshape main_v7 main_v8 rfl shapeCasts_S300000x1_S300000,
    StableHlo.unary main_v6 main_v9 ((extractStridedSlice S300000x1 ![0, 2] · slices_S300000x3_S300000x1_0_2) : (⟨S300000x3, .i32⟩ : BufTy).Contents (Elt F) → (⟨S300000x1, .i32⟩ : BufTy).Contents (Elt F)),
    StableHlo.reshape main_v9 main_v10 rfl shapeCasts_S300000x1_S300000,
    StableHlo.unary main_v6 main_v11 ((extractStridedSlice S300000x1 ![0, 1] · slices_S300000x3_S300000x1_0_1) : (⟨S300000x3, .i32⟩ : BufTy).Contents (Elt F) → (⟨S300000x1, .i32⟩ : BufTy).Contents (Elt F)),
    StableHlo.reshape main_v11 main_v12 rfl shapeCasts_S300000x1_S300000,
    StableHlo.nullary main_c_1 (constantI S_ 32 0#32),
    StableHlo.nullary main_c_2 (constantI S_ 32 11#32),
    StableHlo.TRef.unary (.of main_c_1 : StableHlo.TRef sig ⟨S_, .i32⟩) main_call1.v0 id,
    StableHlo.TRef.unary main_call1.v0 main_call1.v1 (broadcastInDim S300000 ![] bcast_S_S300000),
    StableHlo.TRef.binary main_call1.v1 (.of main_v12 : StableHlo.TRef sig ⟨S300000, .i32⟩) main_call1.v2 maxsi,
    StableHlo.TRef.unary (.of main_c_2 : StableHlo.TRef sig ⟨S_, .i32⟩) main_call1.v3 id,
    StableHlo.TRef.unary main_call1.v3 main_call1.v4 (broadcastInDim S300000 ![] bcast_S_S300000),
    StableHlo.TRef.binary main_call1.v4 main_call1.v2 main_call1.v5 minsi,
    StableHlo.nullary main_c_3 (constantI S_ 32 1920000#32),
    StableHlo.unary main_c_3 main_v14 (broadcastInDim S300000 ![] bcast_S_S300000 : (⟨S_, .i32⟩ : BufTy).Contents (Elt F) → (⟨S300000, .i32⟩ : BufTy).Contents (Elt F)),
    StableHlo.binary main_v1 main_v14 main_v15 (muli : (⟨S300000, .i32⟩ : BufTy).Contents (Elt F) → (⟨S300000, .i32⟩ : BufTy).Contents (Elt F) → (⟨S300000, .i32⟩ : BufTy).Contents (Elt F)),
    StableHlo.nullary main_c_4 (constantI S_ 32 4800#32),
    StableHlo.unary main_c_4 main_v16 (broadcastInDim S300000 ![] bcast_S_S300000 : (⟨S_, .i32⟩ : BufTy).Contents (Elt F) → (⟨S300000, .i32⟩ : BufTy).Contents (Elt F)),
    StableHlo.binary main_v8 main_v16 main_v17 (muli : (⟨S300000, .i32⟩ : BufTy).Contents (Elt F) → (⟨S300000, .i32⟩ : BufTy).Contents (Elt F) → (⟨S300000, .i32⟩ : BufTy).Contents (Elt F)),
    StableHlo.binary main_v15 main_v17 main_v18 (addi : (⟨S300000, .i32⟩ : BufTy).Contents (Elt F) → (⟨S300000, .i32⟩ : BufTy).Contents (Elt F) → (⟨S300000, .i32⟩ : BufTy).Contents (Elt F)),
    StableHlo.nullary main_c_5 (constantI S_ 32 12#32),
    StableHlo.unary main_c_5 main_v19 (broadcastInDim S300000 ![] bcast_S_S300000 : (⟨S_, .i32⟩ : BufTy).Contents (Elt F) → (⟨S300000, .i32⟩ : BufTy).Contents (Elt F)),
    StableHlo.binary main_v10 main_v19 main_v20 (muli : (⟨S300000, .i32⟩ : BufTy).Contents (Elt F) → (⟨S300000, .i32⟩ : BufTy).Contents (Elt F) → (⟨S300000, .i32⟩ : BufTy).Contents (Elt F)),
    StableHlo.binary main_v18 main_v20 main_v21 (addi : (⟨S300000, .i32⟩ : BufTy).Contents (Elt F) → (⟨S300000, .i32⟩ : BufTy).Contents (Elt F) → (⟨S300000, .i32⟩ : BufTy).Contents (Elt F)),
    StableHlo.binary main_v21 main_v13 main_v22 (addi : (⟨S300000, .i32⟩ : BufTy).Contents (Elt F) → (⟨S300000, .i32⟩ : BufTy).Contents (Elt F) → (⟨S300000, .i32⟩ : BufTy).Contents (Elt F)),
    StableHlo.nullary main_cst (constant S_ .f32 0x00000000#32),
    StableHlo.unary main_cst main_v23 (broadcastInDim S3840000x32 ![] bcast_S_S3840000x32 : (⟨S_, .f32⟩ : BufTy).Contents (Elt F) → (⟨S3840000x32, .f32⟩ : BufTy).Contents (Elt F)),
    StableHlo.nullary main_c_6 (constantI S_ 32 0#32),
    StableHlo.unary main_c_6 main_v24 (broadcastInDim S300000 ![] bcast_S_S300000 : (⟨S_, .i32⟩ : BufTy).Contents (Elt F) → (⟨S300000, .i32⟩ : BufTy).Contents (Elt F)),
    StableHlo.binary main_v22 main_v24 main_v25 (cmpi .slt : (⟨S300000, .i32⟩ : BufTy).Contents (Elt F) → (⟨S300000, .i32⟩ : BufTy).Contents (Elt F) → (⟨S300000, .i1⟩ : BufTy).Contents (Elt F)),
    StableHlo.nullary main_c_7 (constantI S_ 32 3840000#32),
    StableHlo.unary main_c_7 main_v26 (broadcastInDim S300000 ![] bcast_S_S300000 : (⟨S_, .i32⟩ : BufTy).Contents (Elt F) → (⟨S300000, .i32⟩ : BufTy).Contents (Elt F)),
    StableHlo.binary main_v22 main_v26 main_v27 (addi : (⟨S300000, .i32⟩ : BufTy).Contents (Elt F) → (⟨S300000, .i32⟩ : BufTy).Contents (Elt F) → (⟨S300000, .i32⟩ : BufTy).Contents (Elt F)),
    StableHlo.ternary main_v25 main_v27 main_v22 main_v28 (select : (⟨S300000, .i1⟩ : BufTy).Contents (Elt F) → (⟨S300000, .i32⟩ : BufTy).Contents (Elt F) → (⟨S300000, .i32⟩ : BufTy).Contents (Elt F) → (⟨S300000, .i32⟩ : BufTy).Contents (Elt F)),
    StableHlo.unary main_v28 main_v29 (broadcastInDim S300000x1 ![0] bcast_S300000_S300000x1_0 : (⟨S300000, .i32⟩ : BufTy).Contents (Elt F) → (⟨S300000x1, .i32⟩ : BufTy).Contents (Elt F)),
    StableHlo.ternary main_v23 main_v29 main_arg1 main_v30 ((fun x i u => Host.scatterAdd scatter_S3840000x32_S300000x1_S300000x32_1_0_0_1 x i u) : (⟨S3840000x32, .f32⟩ : BufTy).Contents (Elt F) → (⟨S300000x1, .i32⟩ : BufTy).Contents (Elt F) → (⟨S300000x32, .f32⟩ : BufTy).Contents (Elt F) → (⟨S3840000x32, .f32⟩ : BufTy).Contents (Elt F)),
    StableHlo.reshape main_v30 main_v31 rfl shapeCasts_S3840000x32_S2x400x400x384,
    StableHlo.unary main_v31 main_v32 ((transpose S2x384x400x400 [0, 3, 1, 2] · transposes_S2x400x400x384_S2x384x400x400_0_3_1_2) : (⟨S2x400x400x384, .f32⟩ : BufTy).Contents (Elt F) → (⟨S2x384x400x400, .f32⟩ : BufTy).Contents (Elt F)) ]

/-- Every operation of the line touches TensorCore references only. -/
theorem ops_sub : (ops : List (HloOp τ sig (Elt F))).Forall fun op => op.bufs ⊆ tcRefs τ sig := by
  simp only [List.Forall]
  exact ⟨StableHlo.nullary_bufs_sub .., StableHlo.nullary_bufs_sub .., StableHlo.unary_bufs_sub .., StableHlo.reshape_bufs_sub .., StableHlo.unary_bufs_sub .., StableHlo.unary_bufs_sub .., StableHlo.unary_bufs_sub .., StableHlo.binary_bufs_sub .., StableHlo.unary_bufs_sub .., StableHlo.unary_bufs_sub .., StableHlo.binary_bufs_sub .., StableHlo.unary_bufs_sub .., StableHlo.unary_bufs_sub .., StableHlo.unary_bufs_sub .., StableHlo.binary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.ternary_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.nullary_bufs_sub .., StableHlo.unary_bufs_sub .., StableHlo.unary_bufs_sub .., StableHlo.binary_bufs_sub .., StableHlo.unary_bufs_sub .., StableHlo.unary_bufs_sub .., StableHlo.binary_bufs_sub .., StableHlo.nullary_bufs_sub .., StableHlo.unary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.nullary_bufs_sub .., StableHlo.unary_bufs_sub .., StableHlo.nullary_bufs_sub .., StableHlo.unary_bufs_sub .., StableHlo.binary_bufs_sub .., StableHlo.nullary_bufs_sub .., StableHlo.unary_bufs_sub .., StableHlo.binary_bufs_sub .., StableHlo.ternary_bufs_sub .., StableHlo.unary_bufs_sub .., StableHlo.ternary_bufs_sub .., StableHlo.reshape_bufs_sub .., StableHlo.unary_bufs_sub ..⟩

end Cert.ReferenceIdeal.RefRun

end
-- ==== Proof.RefRun.lean ====
/-
  The reference program's run.

  @main calls three outlined functions: `floor_divide` (which itself calls `_where`) on the three spatial
  columns of the coordinates, and `clip` on the height column. A call executes the callee's operations on the
  call's own buffers, so @main is one straight line of host operations: its own, with the callees' written
  at their call sites (the list `ops`). Every weakly fair execution of that line terminates with each buffer
  at the fold of the operations' results over the launch contents.
-/
import proofs.«104003_j42279658062070_1_alg».proof.Proof.RefOps

noncomputable section

namespace Cert.ReferenceIdeal.RefRun

open Cert.ReferenceIdeal Cert.ReferenceIdeal.Gen Idealize.ShloMosaic Idealize.ShloMosaic.TcCoe Idealize.SL.Sem Idealize.ShloMosaic.StableHlo

variable {F : FTy → Type} [FloatOps F]

-- sixty-four binds re-associated: the rewrite under the chain recurses once per statement
set_option maxRecDepth 4096 in
/-- @main is that straight line: with the callees' definitions unfolded at their calls and sequencing
    re-associated, both sides are one chain of `hlo` steps. -/
theorem main_eq (c : Dev nD) : main (F := F) c = seq ops := by
  simp only [main, fn_floor_divide.body, fn_where.body, fn_clip.body, seq, bind_assoc, pure_bind]

/-- The reference's signature scopes no buffer and no semaphore: it launches no kernel. -/
theorem scopedRefs_eq : (Finset.univ.filter fun b : Ref sig .tc => b.isScoped) = ∅ := by decide
theorem scopedSems_eq : (Finset.univ.filter fun sm : SemLoc sig => sm.isScoped .tc) = ∅ := by decide

/-- From any memory with zero counters, every weakly fair execution of @main terminates, and every final state
    has each TensorCore buffer at the fold of the line's results over the launch contents. -/
theorem run (m : (ℓ : Loc nD τ sig) → Buf (Elt F) ℓ) (ρ : Dev nD → PrngReg) :
    θ_run defs (onTc (τ := τ) (main (F := F))) ⟨m, fun _ => 0, ρ⟩ fun r =>
      ∀ (c : Dev nD) (b : Ref sig .tc), r.2.mem ((c.tc : Thread nD τ).loc b) = after ops (launchContents m c) (b : DevRef τ sig) :=
  run_seq scopedRefs_eq scopedSems_eq defs main (fun _ => ops) main_eq (fun _ => ops_sub) m ρ

end Cert.ReferenceIdeal.RefRun

end
-- ==== Proof.LibFloorDivOne.lean ====
/-
  Floor division by one, word by word.

  The reference normalises the three spatial coordinate columns as `(coords − offset) // stride` with
  offset 0 and stride 1. On 32-bit words jnp's floor division is the quotient rounded toward zero, lowered by
  one where the operands' signs differ and the remainder is not zero. Against the divisor 1 no division
  corner is met (1 is neither 0 nor −1), the truncated quotient of `x` by 1 is `x` and the remainder is 0, so
  the correction never applies and the whole chain is the identity — on EVERY word, negative ones and
  the least one included; and subtracting the zero offset changes nothing either.
-/
import Idealize.ShloMosaic.PureOps

namespace Cert.FloorDivOne

open Idealize.ShloMosaic

/-- Dividing by the word 1 meets no corner of signed division. -/
theorem not_corner_one (x : BitVec 32) : ¬ IntOp.SDivCorner x 1#32 := by
  rintro (h | ⟨-, h⟩)
  · exact absurd h (by decide)
  · exact absurd h (by decide)

/-- The host's truncated quotient of a word by 1 is the word. -/
theorem divsi_one (x : BitVec 32) : IntOp.divsi .host x 1#32 = x := by
  unfold IntOp.divsi
  rw [if_neg (not_corner_one x)]
  exact BitVec.sdiv_one

/-- The host's remainder of a word by 1 is zero. -/
theorem remsi_one (x : BitVec 32) : IntOp.remsi .host x 1#32 = 0#32 := by
  unfold IntOp.remsi
  rw [if_neg (not_corner_one x)]
  exact BitVec.srem_one

/-- Subtracting the zero word changes nothing. -/
theorem subi_zero (x : BitVec 32) : IntOp.subi x 0#32 = x := by
  unfold IntOp.subi
  exact BitVec.sub_zero x

/-- jnp's floor division of an integer tensor by a tensor of ones, as it is lowered — the truncated quotient,
    lowered by one where the signs differ AND the remainder is not zero — is the dividend: the remainder by 1
    is zero, so the second condition fails at every index, whatever the first one says (`sgn`, the divisor's
    broadcast sign, and `dec`, what would be subtracted, play no part). -/
theorem floorDiv_ones {s : Shape} (x ones zeros dec sgn : IVec s 32) (h1 : ∀ i, ones i = 1#32) (h0 : ∀ i, zeros i = 0#32) :
    select (andi (cmpi .ne (signi x) sgn) (cmpi .ne (Host.remsi x ones) zeros)) (subi (Host.divsi x ones) dec) (Host.divsi x ones) = x := by
  funext i
  have hr : cmpi .ne (Host.remsi x ones) zeros i = 0#1 := by
    show IntOp.cmpi .ne (IntOp.remsi .host (x i) (ones i)) (zeros i) = 0#1
    rw [h1, h0, remsi_one]
    decide
  show Scalar.select (IntOp.andi (cmpi .ne (signi x) sgn i) (cmpi .ne (Host.remsi x ones) zeros i)) _ (IntOp.divsi .host (x i) (ones i)) = x i
  rw [hr, h1, divsi_one]
  have ha : IntOp.andi (cmpi .ne (signi x) sgn i) 0#1 = 0#1 := by
    unfold IntOp.andi
    exact BitVec.and_zero
  rw [ha]
  unfold Scalar.select
  rw [if_neg (by decide)]

/-- Subtracting a tensor of zeros changes nothing. -/
theorem subi_zeros {s : Shape} (x zeros : IVec s 32) (h0 : ∀ i, zeros i = 0#32) : subi x zeros = x := by
  funext i
  show IntOp.subi (x i) (zeros i) = x i
  rw [h0, subi_zero]

end Cert.FloorDivOne
-- ==== Proof.RefValue.lean ====
/-
  What the reference computes, and that its scatter words are the plain coordinate columns'.

  The reference first normalises the three spatial columns of the coordinate table,
  (coords[:, :3] − 0) // 1, and only then takes the x, y and height columns; the batch column is taken
  from the table directly. Floor division by one (after subtracting zero) is the identity on every 32-bit word
  (LibFloorDivOne), so each normalised column is the table's own column. The rest of the chain is the flattened voxel
  word, the move of a negative word up by 3840000, the scatter-add of the feature rows into zeros, the view as
  [2, 400, 400, 384] and the transpose to [2, 384, 400, 400].
-/
import proofs.«104003_j42279658062070_1_alg».proof.Proof.RefRun
import proofs.«104003_j42279658062070_1_alg».proof.Proof.LibFloorDivOne
import Idealize.ShloMosaic.Lib.Pipeline.Value

noncomputable section

namespace Cert.ReferenceIdeal.RefValue

open Cert.ReferenceIdeal Cert.ReferenceIdeal.Gen Idealize.ShloMosaic Idealize.ShloMosaic.TcCoe Idealize.SL.Sem Idealize.ShloMosaic.StableHlo
open Cert.ReferenceIdeal.RefRun

variable {F : FTy → Type} [FloatOps F]

/-! ## The chain, named -/

/-- A length-3 row of one word, repeated for every point. -/
def rows3 (w : BitVec 32) : IVec S300000x3 32 :=
  broadcastInDim S300000x3 ![0, 1] bcast_S1x3_S300000x3_0_1 (broadcastInDim S1x3 ![1] bcast_S3_S1x3_1 (constantI S3 32 w))

/-- One word at every entry of the three spatial columns. -/
def splat3 (w : BitVec 32) : IVec S300000x3 32 := broadcastInDim S300000x3 ![] bcast_S_S300000x3 (constantI S_ 32 w)

/-- The three spatial columns of the table. -/
def xyz (a : IVec S300000x4 32) : IVec S300000x3 32 := extractStridedSlice S300000x3 ![0, 0] a slices_S300000x4_S300000x3_0_0

/-- jnp's floor division by the stride row (1, 1, 1), as lowered: the truncated quotient, one less where the
    signs differ and the remainder is not zero. -/
def floorDiv (x : IVec S300000x3 32) : IVec S300000x3 32 :=
  select
    (andi
      (cmpi .ne (signi x)
        (broadcastInDim S300000x3 ![0, 1] bcast_S1x3_S300000x3_0_1 (signi (broadcastInDim S1x3 ![1] bcast_S3_S1x3_1 (constantI S3 32 1#32)))))
      (cmpi .ne (Host.remsi x (rows3 1#32)) (splat3 0#32)))
    (subi (Host.divsi x (rows3 1#32)) (splat3 1#32))
    (Host.divsi x (rows3 1#32))

/-- The normalised spatial columns: (coords[:, :3] − offset) // stride at offset 0, stride 1. -/
def spatial (a : IVec S300000x4 32) : IVec S300000x3 32 := floorDiv (subi (xyz a) (rows3 0#32))

/-- The batch column, straight from the table. -/
def colB (a : IVec S300000x4 32) : IVec S300000 32 :=
  shapeCast S300000 (extractStridedSlice S300000x1 ![0, 3] a slices_S300000x4_S300000x1_0_3) shapeCasts_S300000x1_S300000
/-- The x, height and y columns of three spatial columns `q`. -/
def colX (q : IVec S300000x3 32) : IVec S300000 32 :=
  shapeCast S300000 (extractStridedSlice S300000x1 ![0, 0] q slices_S300000x3_S300000x1_0_0) shapeCasts_S300000x1_S300000
def colZ (q : IVec S300000x3 32) : IVec S300000 32 :=
  shapeCast S300000 (extractStridedSlice S300000x1 ![0, 1] q slices_S300000x3_S300000x1_0_1) shapeCasts_S300000x1_S300000
def colY (q : IVec S300000x3 32) : IVec S300000 32 :=
  shapeCast S300000 (extractStridedSlice S300000x1 ![0, 2] q slices_S300000x3_S300000x1_0_2) shapeCasts_S300000x1_S300000

/-- One word at every point. -/
def splat (w : BitVec 32) : IVec S300000 32 := broadcastInDim S300000 ![] bcast_S_S300000 (constantI S_ 32 w)

/-- The height clamped to [0, 11]. -/
def clamp (z : IVec S300000 32) : IVec S300000 32 := minsi (splat 11#32) (maxsi (splat 0#32) z)

/-- The flattened voxel word, in wrapping arithmetic. -/
def flat (b x y z : IVec S300000 32) : IVec S300000 32 :=
  addi (addi (addi (muli b (splat 1920000#32)) (muli x (splat 4800#32))) (muli y (splat 12#32))) z

/-- A negative word counts from the end of the 3840000 voxels. -/
def wrap (i : IVec S300000 32) : IVec S300000 32 := select (cmpi .slt i (splat 0#32)) (addi i (splat 3840000#32)) i

/-- The scatter word of every point from the batch column and three spatial columns `q`. -/
def voxelOf (a : IVec S300000x4 32) (q : IVec S300000x3 32) : IVec S300000 32 :=
  wrap (flat (colB a) (colX q) (colY q) (clamp (colZ q)))

/-- The feature rows summed into the zero voxel array at the given words, viewed [2, 400, 400, 384]. -/
def dense (idx : IVec S300000 32) (feats : FVec F S300000x32 .f32) : FVec F S2x400x400x384 .f32 :=
  shapeCast S2x400x400x384
    (Host.scatterAdd scatter_S3840000x32_S300000x1_S300000x32_1_0_0_1
      (broadcastInDim S3840000x32 ![] bcast_S_S3840000x32 (constant S_ .f32 0x00000000#32))
      (broadcastInDim S300000x1 ![0] bcast_S300000_S300000x1_0 idx) feats)
    shapeCasts_S3840000x32_S2x400x400x384

/-- The reference's result from its two arguments. -/
def result (a : IVec S300000x4 32) (feats : FVec F S300000x32 .f32) : FVec F S2x384x400x400 .f32 :=
  transpose S2x384x400x400 [0, 3, 1, 2] (dense (voxelOf a (spatial a)) feats) transposes_S2x400x400x384_S2x384x400x400_0_3_1_2

/-! ## The run's result is that chain -/

/-- The fold of @main's operations at the result buffer is `result` of the two arguments' contents. -/
theorem out_eq (V : Valuation τ sig (Elt F)) :
    (after ops V (main_v32 : DevRef τ sig) : S2x384x400x400.Idx → Elt F .f32)
      = result (V (main_arg0 : DevRef τ sig)) (V (main_arg1 : DevRef τ sig)) := by
  after_results_simp
  rfl

theorem arg0_eq (V : Valuation τ sig (Elt F)) : after ops V (main_arg0 : DevRef τ sig) = V (main_arg0 : DevRef τ sig) := by
  after_results_simp

theorem arg1_eq (V : Valuation τ sig (Elt F)) : after ops V (main_arg1 : DevRef τ sig) = V (main_arg1 : DevRef τ sig) := by
  after_results_simp

/-! ## The normalisation is the identity -/

/-- Floor division by one of the table's spatial columns less zero is those columns. -/
theorem spatial_eq (a : IVec S300000x4 32) : spatial a = xyz a := by
  unfold spatial floorDiv
  rw [Cert.FloorDivOne.subi_zeros (xyz a) (rows3 0#32) (fun _ => rfl)]
  exact Cert.FloorDivOne.floorDiv_ones (xyz a) (rows3 1#32) (splat3 0#32) (splat3 1#32) _ (fun _ => rfl) (fun _ => rfl)

end Cert.ReferenceIdeal.RefValue

end
-- ==== Proof.Bridge.lean ====
/-
  The two programs compute one function of their arguments.

  Both scatter-add the feature rows into the same zero voxel array and rearrange the [2, 400, 400, 384] view of the
  sum channel-major. They differ in two places. The reference first takes (coords[:, :3] − 0) // 1 and reads its
  x, y and height columns off that; floor division by one is the identity on 32-bit words, and a column of the
  table's first three columns is the table's column, so the scatter words are equal word for word (no bound on
  the coordinates is used: the arithmetic wraps the same way on both sides, and out-of-range words are dropped by
  the one scatter both programs apply). And the reference transposes on the host what the kernel program
  transposes block by block in its pallas_call; the blocks tile the output (KernelPermute).
-/
import proofs.«104003_j42279658062070_1_alg».proof.Proof.KernelPermute
import proofs.«104003_j42279658062070_1_alg».proof.Proof.KernelDense
import proofs.«104003_j42279658062070_1_alg».proof.Proof.RefValue

noncomputable section

namespace Cert.Bridge

open Idealize.ShloMosaic Idealize.ShloMosaic.TcCoe Idealize.SL.Sem

/-! ## A column of the first three columns is the table's column -/

/-- The x column of the table's three spatial columns is the table's column 0. -/
theorem colX_eq (a : IVec Cert.KernelIdeal.S300000x4 32) :
    Cert.ReferenceIdeal.RefValue.colX (Cert.ReferenceIdeal.RefValue.xyz a) = Cert.KernelIdeal.Dense.colX a := by
  unfold Cert.ReferenceIdeal.RefValue.colX Cert.KernelIdeal.Dense.colX Cert.ReferenceIdeal.RefValue.xyz
  refine congrArg (fun v => shapeCast Cert.KernelIdeal.S300000 v _) ?_
  funext j
  unfold extractStridedSlice
  refine congrArg a (funext fun b => Fin.ext ?_)
  match b with
  | ⟨0, _⟩ => show 0 + (0 + (j 0).val) = 0 + (j 0).val; omega
  | ⟨1, _⟩ => show 0 + (0 + (j 1).val) = 0 + (j 1).val; omega

/-- The height column of the three spatial columns is the table's column 1. -/
theorem colZ_eq (a : IVec Cert.KernelIdeal.S300000x4 32) :
    Cert.ReferenceIdeal.RefValue.colZ (Cert.ReferenceIdeal.RefValue.xyz a) = Cert.KernelIdeal.Dense.colZ a := by
  unfold Cert.ReferenceIdeal.RefValue.colZ Cert.KernelIdeal.Dense.colZ Cert.ReferenceIdeal.RefValue.xyz
  refine congrArg (fun v => shapeCast Cert.KernelIdeal.S300000 v _) ?_
  funext j
  unfold extractStridedSlice
  refine congrArg a (funext fun b => Fin.ext ?_)
  match b with
  | ⟨0, _⟩ => show 0 + (0 + (j 0).val) = 0 + (j 0).val; omega
  | ⟨1, _⟩ => show 0 + (1 + (j 1).val) = 1 + (j 1).val; omega

/-- The y column of the three spatial columns is the table's column 2. -/
theorem colY_eq (a : IVec Cert.KernelIdeal.S300000x4 32) :
    Cert.ReferenceIdeal.RefValue.colY (Cert.ReferenceIdeal.RefValue.xyz a) = Cert.KernelIdeal.Dense.colY a := by
  unfold Cert.ReferenceIdeal.RefValue.colY Cert.KernelIdeal.Dense.colY Cert.ReferenceIdeal.RefValue.xyz
  refine congrArg (fun v => shapeCast Cert.KernelIdeal.S300000 v _) ?_
  funext j
  unfold extractStridedSlice
  refine congrArg a (funext fun b => Fin.ext ?_)
  match b with
  | ⟨0, _⟩ => show 0 + (0 + (j 0).val) = 0 + (j 0).val; omega
  | ⟨1, _⟩ => show 0 + (2 + (j 1).val) = 2 + (j 1).val; omega

/-! ## The scatter words, and the results -/

/-- The reference's scatter words are the kernel program's. -/
theorem voxel_eq (a : IVec Cert.KernelIdeal.S300000x4 32) :
    Cert.ReferenceIdeal.RefValue.voxelOf a (Cert.ReferenceIdeal.RefValue.spatial a) = Cert.KernelIdeal.Dense.voxel a := by
  rw [Cert.ReferenceIdeal.RefValue.spatial_eq]
  unfold Cert.ReferenceIdeal.RefValue.voxelOf Cert.KernelIdeal.Dense.voxel
  rw [colX_eq, colY_eq, colZ_eq]
  rfl

variable {F : FTy → Type} [FloatOps F]

/-- The reference's result is the kernel program's: the rearranged dense grid at the kernel program's words. -/
theorem result_eq (a : IVec Cert.KernelIdeal.S300000x4 32) (feats : FVec F Cert.KernelIdeal.S300000x32 .f32) :
    Cert.ReferenceIdeal.RefValue.result a feats
      = Cert.KernelIdeal.Permute.nchw (Cert.KernelIdeal.Dense.dense (Cert.KernelIdeal.Dense.voxel a) feats) := by
  unfold Cert.ReferenceIdeal.RefValue.result
  rw [voxel_eq]
  rfl

/-! ## The two runs, at one function -/

/-- The kernel program's run: its result is the rearranged dense grid of the launch's arguments. -/
theorem kernel_run (m : (ℓ : Loc Cert.KernelIdeal.nD Cert.KernelIdeal.τ Cert.KernelIdeal.sig) → Buf (Elt F) ℓ)
    (ρ : Dev Cert.KernelIdeal.nD → PrngReg) :
    θ_run (Cert.KernelIdeal.defs (F := F)) (onTc (τ := Cert.KernelIdeal.τ) (Cert.KernelIdeal.main (F := F))) ⟨m, fun _ => 0, ρ⟩
      fun r => ∀ c : Dev Cert.KernelIdeal.nD,
        r.2.mem ((c.tc : Thread Cert.KernelIdeal.nD Cert.KernelIdeal.τ).loc Cert.KernelIdeal.main_v27)
          = Cert.KernelIdeal.Permute.nchw (Cert.KernelIdeal.Dense.dense
              (Cert.KernelIdeal.Dense.voxel (m ((c.tc : Thread Cert.KernelIdeal.nD Cert.KernelIdeal.τ).loc Cert.KernelIdeal.main_arg0)))
              (m ((c.tc : Thread Cert.KernelIdeal.nD Cert.KernelIdeal.τ).loc Cert.KernelIdeal.main_arg1)))
        ∧ r.2.mem ((c.tc : Thread Cert.KernelIdeal.nD Cert.KernelIdeal.τ).loc Cert.KernelIdeal.main_arg0)
            = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1)
            = m ((c.tc : Thread Cert.KernelIdeal.nD Cert.KernelIdeal.τ).loc Cert.KernelIdeal.main_arg1) :=
  (θ_run Cert.KernelIdeal.defs _ _).mono
    (fun _ h c => ⟨(h c).1.trans (congrArg Cert.KernelIdeal.Permute.nchw (Cert.KernelIdeal.Dense.V_dense m c)), (h c).2⟩)
    (Cert.KernelIdeal.Permute.run m ρ)

/-- The reference's run: its result is the same function of ITS launch's arguments, which it leaves unchanged. -/
theorem reference_run (m : (ℓ : Loc Cert.ReferenceIdeal.nD Cert.ReferenceIdeal.τ Cert.ReferenceIdeal.sig) → Buf (Elt F) ℓ)
    (ρ : Dev Cert.ReferenceIdeal.nD → PrngReg) :
    θ_run (Cert.ReferenceIdeal.defs (F := F)) (onTc (τ := Cert.ReferenceIdeal.τ) (Cert.ReferenceIdeal.main (F := F))) ⟨m, fun _ => 0, ρ⟩
      fun r => ∀ c : Dev Cert.ReferenceIdeal.nD,
        r.2.mem ((c.tc : Thread Cert.ReferenceIdeal.nD Cert.ReferenceIdeal.τ).loc Cert.ReferenceIdeal.main_v32)
          = Cert.KernelIdeal.Permute.nchw (Cert.KernelIdeal.Dense.dense
              (Cert.KernelIdeal.Dense.voxel (m ((c.tc : Thread Cert.ReferenceIdeal.nD Cert.ReferenceIdeal.τ).loc Cert.ReferenceIdeal.main_arg0)))
              (m ((c.tc : Thread Cert.ReferenceIdeal.nD Cert.ReferenceIdeal.τ).loc Cert.ReferenceIdeal.main_arg1)))
        ∧ r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
        ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1) :=
  (θ_run Cert.ReferenceIdeal.defs _ _).mono
    (fun _ h c => ⟨((h c Cert.ReferenceIdeal.main_v32).trans (Cert.ReferenceIdeal.RefValue.out_eq _)).trans (result_eq _ _),
      (h c Cert.ReferenceIdeal.main_arg0).trans (Cert.ReferenceIdeal.RefValue.arg0_eq _),
      (h c Cert.ReferenceIdeal.main_arg1).trans (Cert.ReferenceIdeal.RefValue.arg1_eq _)⟩)
    (Cert.ReferenceIdeal.RefRun.run m ρ)

end Cert.Bridge

end
-- ==== Proof.lean ====
/-
  The certificate: a BEV height-compression layer, as a kernel program against its jnp reference.

  Both programs take a table of integer voxel coordinates (x, height, y, batch per point) and a table of feature
  rows, add each feature row into a dense grid f32[2 · 400 · 400 · 12, 32] at the flattened voxel word
  batch · 1920000 + x · 4800 + y · 12 + clamp(height, 0, 11), view the grid as [2, 400, 400, 384] and return it
  channel-major, [2, 384, 400, 400]. The kernel program does the last step in a pallas_call over a 2 × 25 × 3
  grid, one [16, 400, 128] → [128, 16, 400] block transpose per point; the reference does it with one host
  transpose, and normalises the spatial coordinates by (c − 0) // 1 first.

  The frames of the two kernel programs are the generated ones; the reference's frame and result are read off its run as
  one straight line of host operations (RefRun, RefValue). At the ideal instance both results are the same
  function of the arguments (Bridge): the scatter words agree word for word because floor division by one
  is the identity on 32-bit words, the scatter-add and the view are the same operations on both sides, and the kernel's
  blocks tile the transposed array (KernelPermute). No rewrite was applied by the ideal pass, so `preserves` states
  nothing; the finiteness of the features is not used: no algebraic law is needed between the two sums.
-/
import proofs.«104003_j42279658062070_1_alg».proof.Defs
import proofs.«104003_j42279658062070_1_alg».proof.Proof.Gen.Kernel
import proofs.«104003_j42279658062070_1_alg».proof.Proof.Gen.Kernel.Skeleton
import proofs.«104003_j42279658062070_1_alg».proof.Proof.Gen.Kernel.Launch
import proofs.«104003_j42279658062070_1_alg».proof.Proof.Gen.Kernel.Points
import proofs.«104003_j42279658062070_1_alg».proof.Proof.Gen.Kernel.Frame
import proofs.«104003_j42279658062070_1_alg».proof.Proof.Gen.KernelIdeal
import proofs.«104003_j42279658062070_1_alg».proof.Proof.Gen.KernelIdeal.Skeleton
import proofs.«104003_j42279658062070_1_alg».proof.Proof.Gen.KernelIdeal.Launch
import proofs.«104003_j42279658062070_1_alg».proof.Proof.Gen.KernelIdeal.Points
import proofs.«104003_j42279658062070_1_alg».proof.Proof.Gen.KernelIdeal.Frame
import proofs.«104003_j42279658062070_1_alg».proof.Proof.Gen.KernelIdeal.Value
import proofs.«104003_j42279658062070_1_alg».proof.Proof.Gen.ReferenceIdeal
import proofs.«104003_j42279658062070_1_alg».proof.Proof.Gen.Pre_finite_inputs
import proofs.«104003_j42279658062070_1_alg».proof.Proof.Bridge
import Idealize.ShloMosaic.Adequacy
import Idealize.ShloMosaic.Init

noncomputable section

namespace Cert.Proof

open Idealize.ShloMosaic Idealize.SL.Sem

/-- The word-level kernel program runs and leaves its arguments unchanged: the generated frame. -/
theorem frame_kernel : Cert.frame_Kernel := fun m ρ _ => Cert.Kernel.Gen.frame m ρ

/-- So does the idealized kernel program. -/
theorem frame_kernelIdeal : Cert.frame_KernelIdeal := fun m ρ _ => Cert.KernelIdeal.Gen.frame m ρ

/-- The reference runs and leaves its arguments unchanged: its run with the result dropped. -/
theorem frame_referenceIdeal : Cert.frame_ReferenceIdeal := fun m ρ _ =>
  (θ_run Cert.ReferenceIdeal.defs _ _).mono (fun _ h c => (h c).2) (Cert.Bridge.reference_run (F := Ideal) m ρ)

/-- From memories agreeing on the arguments both programs end at the rearranged dense grid of those arguments. -/
theorem algebraic : Cert.algebraic_KernelIdeal_ReferenceIdeal := by
  intro m ρ m' ρ' _ hagree
  refine ⟨_, Cert.Bridge.kernel_run (F := Ideal) m ρ, ?_⟩
  refine (θ_run Cert.ReferenceIdeal.defs _ _).mono (fun _ h c => ⟨(h c).1.trans ?_, (h c).2⟩)
    (Cert.Bridge.reference_run (F := Ideal) m' ρ')
  rw [(hagree c).1, (hagree c).2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, trivial, algebraic⟩

end Cert.Proof

end
